-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S1x128 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S1x128 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x64 .f32) (main_arg3 : FVec F S128x64 .f32) (main_arg4 : FVec F S128 .f32) (main_arg5 : FVec F S128x128 .f32) (main_arg6 : FVec F S128 .f32) (main_arg7 : FVec F S128x128 .f32) (main_arg8 : FVec F S128 .f32) (main_arg9 : FVec F S1x128 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S128x1 : Shape := ⟨2, ![128, 1]⟩
abbrev S1x1 : Shape := ⟨2, ![1, 1]⟩
abbrev S800000x1 : Shape := ⟨2, ![800000, 1]⟩
abbrev S8000x64 : Shape := ⟨2, ![8000, 64]⟩
abbrev S8000x1 : Shape := ⟨2, ![8000, 1]⟩
abbrev S8000x128 : Shape := ⟨2, ![8000, 128]⟩
abbrev S800000 : Shape := ⟨1, ![800000]⟩

abbrev nBuf : Space → Nat
  | .hbm => 25
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S64x128, .f32⟩
  | .hbm, ⟨12, _⟩ => ⟨S64x128, .bf16⟩
  | .hbm, ⟨13, _⟩ => ⟨S128x128, .f32⟩
  | .hbm, ⟨14, _⟩ => ⟨S128x128, .bf16⟩
  | .hbm, ⟨15, _⟩ => ⟨S128x128, .f32⟩
  | .hbm, ⟨16, _⟩ => ⟨S128x128, .bf16⟩
  | .hbm, ⟨17, _⟩ => ⟨S128x1, .f32⟩
  | .hbm, ⟨18, _⟩ => ⟨S128x1, .bf16⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x1, .f32⟩
  | .hbm, ⟨23, _⟩ => ⟨S800000x1, .f32⟩
  | .hbm, ⟨24, _⟩ => ⟨S800000, .f32⟩
  | .local _ .vmem, ⟨0, _⟩ => ⟨S8000x64, .f32⟩
  | .local _ .vmem, ⟨1, _⟩ => ⟨S8000x64, .f32⟩
  | .local _ .vmem, ⟨2, _⟩ => ⟨S64x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x1, .bf16⟩
  | .local _ .vmem, ⟨9, _⟩ => ⟨S1x1, .f32⟩
  | .local _ .vmem, ⟨10, _⟩ => ⟨S8000x1, .f32⟩
  | .local _ .vmem, ⟨11, _⟩ => ⟨S8000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x64_S64x128_1_0 : S128x64.Transposes [1, 0] S64x128
  bitsLt_bf16_f32 : FTy.bits .bf16 < FTy.bits .f32
  transposes_S128x128_S128x128_1_0 : S128x128.Transposes [1, 0] S128x128
  transposes_S1x128_S128x1_1_0 : S1x128.Transposes [1, 0] S128x1
  shapeCasts_S128_S1x128 : S128.ShapeCasts S1x128
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x1.size a ≤ S800000x1.size a
  hwx0_9 : ∀ i : grid0.Coords, EltTy.bits .f32 = 32 ∨ (Rect.block (s := S800000x1) S8000x1.size (cc0_transform_9 i) (hinb0_9 i)).WholeWords (EltTy.packing .f32)

variable [Facts₀]

def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S8000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S800000x128 : Shape := ⟨2, ![800000, 128]⟩
abbrev S128x1 : Shape := ⟨2, ![128, 1]⟩
abbrev S800000x1 : Shape := ⟨2, ![800000, 1]⟩
abbrev S1x1 : Shape := ⟨2, ![1, 1]⟩
abbrev S_ : Shape := ⟨0, ![]⟩
abbrev S800000 : Shape := ⟨1, ![800000]⟩

abbrev nBuf : Space → Nat
  | .hbm => 43
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S64x128, .f32⟩
  | .hbm, ⟨12, _⟩ => ⟨S800000x128, .f32⟩
  | .hbm, ⟨13, _⟩ => ⟨S1x128, .f32⟩
  | .hbm, ⟨14, _⟩ => ⟨S800000x128, .f32⟩
  | .hbm, ⟨15, _⟩ => ⟨S800000x128, .f32⟩
  | .hbm, ⟨16, _⟩ => ⟨S800000x128, .f32⟩
  | .hbm, ⟨17, _⟩ => ⟨S128x128, .f32⟩
  | .hbm, ⟨18, _⟩ => ⟨S800000x128, .f32⟩
  | .hbm, ⟨19, _⟩ => ⟨S1x128, .f32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S128x128, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S128x1, .f32⟩
  | .hbm, ⟨30, _⟩ => ⟨S800000x1, .f32⟩
  | .hbm, ⟨31, _⟩ => ⟨S1x1, .f32⟩
  | .hbm, ⟨32, _⟩ => ⟨S800000x1, .f32⟩
  | .hbm, ⟨33, _⟩ => ⟨S800000x1, .f32⟩
  | .hbm, ⟨34, _⟩ => ⟨S800000x1, .f32⟩
  | .hbm, ⟨35, _⟩ => ⟨S800000x1, .f32⟩
  | .hbm, ⟨36, _⟩ => ⟨S_, .f32⟩
  | .hbm, ⟨37, _⟩ => ⟨S800000x1, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Spec.lean ====
/-
  The function both programs compute, one row at a time.

  An edge's 64 features pass through four affine layers. A layer sends a row `a` to
  `n ↦ (Σ_k a_k · w_{k,n}) + b_n`; the first three are followed by `tanh`, the last by the logistic
  function `z ↦ 1 / (1 + e^(-z))`. Over the extended reals every operation here is total, so the
  function needs no side condition: no step below cancels, distributes or reorders a sum.
  The weights are taken in "row times matrix" layout (`w k n`: input feature `k`, output feature `n`),
  which is the transpose of how the arguments store them; each side supplies that transpose itself.
-/
import Idealize.ShloMosaic.PureOps.Ideal
import Idealize.ShloMosaic.PureOps.Ideal.Laws
import Idealize.ShloMosaic.Lib.ValueIdx

noncomputable section

open scoped BigOperators

namespace Cert.EdgeMlp

open Idealize.ShloMosaic Idealize.ShloMosaic.ValueIdx

/-- One affine layer on a row: output feature `n` is the row's inner product with column `n` of the
    weights, plus that feature's bias. -/
def affine {K N : Nat} (a : Fin K → EReal) (w : Fin K → Fin N → EReal) (b : Fin N → EReal) (n : Fin N) : EReal :=
  (∑ k : Fin K, a k * w k n) + b n

/-- The whole network on one row: 64 → 128 → 128 → 128 → 1, `tanh` after the first three layers and
    the logistic function after the last. -/
def net (x : Fin 64 → EReal)
    (w1 : Fin 64 → Fin 128 → EReal) (b1 : Fin 128 → EReal)
    (w2 : Fin 128 → Fin 128 → EReal) (b2 : Fin 128 → EReal)
    (w3 : Fin 128 → Fin 128 → EReal) (b3 : Fin 128 → EReal)
    (w4 : Fin 128 → Fin 1 → EReal) (b4 : Fin 1 → EReal) : EReal :=
  Ideal.logistic (affine (fun k => Ideal.tanh (affine (fun j => Ideal.tanh (affine (fun i => Ideal.tanh (affine x w1 b1 i)) w2 b2 j)) w3 b3 k)) w4 b4 0)

/-- The network depends on its row, weights and biases only through their entries. -/
theorem net_congr {x x' : Fin 64 → EReal}
    {w1 w1' : Fin 64 → Fin 128 → EReal} {b1 b1' : Fin 128 → EReal}
    {w2 w2' : Fin 128 → Fin 128 → EReal} {b2 b2' : Fin 128 → EReal}
    {w3 w3' : Fin 128 → Fin 128 → EReal} {b3 b3' : Fin 128 → EReal}
    {w4 w4' : Fin 128 → Fin 1 → EReal} {b4 b4' : Fin 1 → EReal}
    (hx : ∀ l, x l = x' l) (hw1 : ∀ k n, w1 k n = w1' k n) (hb1 : ∀ n, b1 n = b1' n)
    (hw2 : ∀ k n, w2 k n = w2' k n) (hb2 : ∀ n, b2 n = b2' n)
    (hw3 : ∀ k n, w3 k n = w3' k n) (hb3 : ∀ n, b3 n = b3' n)
    (hw4 : ∀ k n, w4 k n = w4' k n) (hb4 : ∀ n, b4 n = b4' n) :
    net x w1 b1 w2 b2 w3 b3 w4 b4 = net x' w1' b1' w2' b2' w3' b3' w4' b4' := by
  obtain rfl : x = x' := funext hx
  obtain rfl : w1 = w1' := funext fun k => funext fun n => hw1 k n
  obtain rfl : b1 = b1' := funext hb1
  obtain rfl : w2 = w2' := funext fun k => funext fun n => hw2 k n
  obtain rfl : b2 = b2' := funext hb2
  obtain rfl : w3 = w3' := funext fun k => funext fun n => hw3 k n
  obtain rfl : b3 = b3' := funext hb3
  obtain rfl : w4 = w4' := funext fun k => funext fun n => hw4 k n
  obtain rfl : b4 = b4' := funext hb4
  rfl

/-- The result for edge `r`, from the argument arrays: the network on row `r` of the edge features.
    The arguments store a weight matrix with the output feature first, so layer input `k`, output `n`
    reads the entry `(n, k)`; a bias is read at its feature, the last layer's one bias at `0`. -/
def out (X : (⟨2, ![800000, 64]⟩ : Shape).Idx → EReal)
    (W1 : (⟨2, ![128, 64]⟩ : Shape).Idx → EReal) (B1 : (⟨1, ![128]⟩ : Shape).Idx → EReal)
    (W2 : (⟨2, ![128, 128]⟩ : Shape).Idx → EReal) (B2 : (⟨1, ![128]⟩ : Shape).Idx → EReal)
    (W3 : (⟨2, ![128, 128]⟩ : Shape).Idx → EReal) (B3 : (⟨1, ![128]⟩ : Shape).Idx → EReal)
    (W4 : (⟨2, ![1, 128]⟩ : Shape).Idx → EReal) (B4 : (⟨1, ![1]⟩ : Shape).Idx → EReal) (r : Fin 800000) : EReal :=
  net (fun l => X (ix2 r l)) (fun k n => W1 (ix2 n k)) (fun n => B1 (ix1 n)) (fun k n => W2 (ix2 n k)) (fun n => B2 (ix1 n))
    (fun k n => W3 (ix2 n k)) (fun n => B3 (ix1 n)) (fun k n => W4 (ix2 n k)) (fun _ => B4 (ix1 0))

/-- The single-precision word `0x3F800000` is the number one. -/
theorem ofBits_one_f32 : Ideal.ofBits .f32 0x3F800000#32 = 1 := by
  simp [Ideal.ofBits, Ideal.ieee, -EReal.coe_mul]
  norm_num

/-- The logistic function spelt out with a quotient, a sum, an exponential and a negation, as a host
    program writes it, with the literal one as its word: it is the logistic function. -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.EdgeMlp

end
-- ==== Proof.KernelRow.lean ====
/-
  One block of the kernel, read row by row.

  At a grid point the body holds 8000 rows of edge features and the whole of each weight matrix and
  bias. Its arithmetic is four products, each into a zero accumulator and each followed by a bias
  row broadcast down the block; `tanh` after the first three and the logistic function after the
  last. A change of float format is the identity on the extended reals, so the casts between the
  layers drop out. Read at row `p`, a product into a zero accumulator is the plain sum over the
  contracted feature of the row's entry times the weight's, so row `p` of the block's result is the
  network `EdgeMlp.net` applied to row `p` of the block's features: no row sees another row.
-/
import proofs.«109541_j996432412877_1_alg».proof.Proof.Gen.KernelIdeal.Skeleton
import proofs.«109541_j996432412877_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ## The three products at an index

For each of the three shapes of product (64 features into 128, 128 into 128, 128 into 1) the
operand indices of the product at output position `(p, n)` and contracted feature `k` are `(p, k)`
on the left and `(k, n)` on the right. -/

theorem lhs_a_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_a_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_a_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_a_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- The first layer's product at row `p`, output feature `n`: the sum over the 64 input features. -/
theorem matmul_a_apply (a : FVec Ideal S8000x64 .bf16) (w : FVec Ideal S64x128 .bf16) (p : Fin 8000) (n : Fin 128) :
    matmul dot_S8000x64_S64x128_S8000x128_1_0_0_1_n_n none a w (constant S8000x128 .f32 0x00000000#32) (ix2 p n)
      = ∑ k : Fin 64, a (ix2 p k) * w (ix2 k n) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p n) ((contrEquiv1 dot_S8000x64_S64x128_S8000x128_1_0_0_1_n_n 64 rfl rfl).symm k) = ix2 p k := funext fun a => Fin.ext (by
    match a with
    | ⟨0, _⟩ => exact lhs_a_0 _ _
    | ⟨1, _⟩ => exact (lhs_a_1 _ _).trans hk)
  have er : dot_S8000x64_S64x128_S8000x128_1_0_0_1_n_n.rhsIdx (ix2 p n) ((contrEquiv1 dot_S8000x64_S64x128_S8000x128_1_0_0_1_n_n 64 rfl rfl).symm k) = ix2 k n := funext fun a => Fin.ext (by
    match a with
    | ⟨0, _⟩ => exact (rhs_a_0 _ _).trans hk
    | ⟨1, _⟩ => exact rhs_a_1 _ _)
  rw [el, er]

theorem lhs_b_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_b_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_b_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_b_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A hidden layer's product at row `p`, output feature `n`: the sum over the 128 hidden features. -/
theorem matmul_b_apply (a : FVec Ideal S8000x128 .bf16) (w : FVec Ideal S128x128 .bf16) (p : Fin 8000) (n : Fin 128) :
    matmul dot_S8000x128_S128x128_S8000x128_1_0_0_1_n_n none a w (constant S8000x128 .f32 0x00000000#32) (ix2 p n)
      = ∑ k : Fin 128, a (ix2 p k) * w (ix2 k n) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p n) ((contrEquiv1 dot_S8000x128_S128x128_S8000x128_1_0_0_1_n_n 128 rfl rfl).symm k) = ix2 p k := funext fun a => Fin.ext (by
    match a with
    | ⟨0, _⟩ => exact lhs_b_0 _ _
    | ⟨1, _⟩ => exact (lhs_b_1 _ _).trans hk)
  have er : dot_S8000x128_S128x128_S8000x128_1_0_0_1_n_n.rhsIdx (ix2 p n) ((contrEquiv1 dot_S8000x128_S128x128_S8000x128_1_0_0_1_n_n 128 rfl rfl).symm k) = ix2 k n := funext fun a => Fin.ext (by
    match a with
    | ⟨0, _⟩ => exact (rhs_b_0 _ _).trans hk
    | ⟨1, _⟩ => exact rhs_b_1 _ _)
  rw [el, er]

theorem lhs_c_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhs_c_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhs_c_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhs_c_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- The last layer's product at row `p`: the sum over the 128 hidden features, into the one output. -/
theorem matmul_c_apply (a : FVec Ideal S8000x128 .bf16) (w : FVec Ideal S128x1 .bf16) (p : Fin 8000) (n : Fin 1) :
    matmul dot_S8000x128_S128x1_S8000x1_1_0_0_1_n_n none a w (constant S8000x1 .f32 0x00000000#32) (ix2 p n)
      = ∑ k : Fin 128, a (ix2 p k) * w (ix2 k n) := by
  simp only [matmul]
  rw [Ideal.matmul_constant_zero_apply, ← Equiv.sum_comp (contrEquiv1 dot_S8000x128_S128x1_S8000x1_1_0_0_1_n_n 128 rfl rfl).symm]
  refine Finset.sum_congr rfl fun k _ => ?_
  have hk := contrEquiv1_symm_val dot_S8000x128_S128x1_S8000x1_1_0_0_1_n_n 128 rfl rfl k
  have el : dot_S8000x128_S128x1_S8000x1_1_0_0_1_n_n.lhsIdx (ix2 p n) ((contrEquiv1 dot_S8000x128_S128x1_S8000x1_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S8000x128_S128x1_S8000x1_1_0_0_1_n_n.rhsIdx (ix2 p n) ((contrEquiv1 dot_S8000x128_S128x1_S8000x1_1_0_0_1_n_n 128 rfl rfl).symm k) = ix2 k n := funext fun a => Fin.ext (by
    match a with
    | ⟨0, _⟩ => exact (rhs_c_0 _ _).trans hk
    | ⟨1, _⟩ => exact rhs_c_1 _ _)
  rw [el, er]

/-! ## The bias rows, broadcast down the block -/

/-- A 128-wide bias row broadcast to 8000 rows reads the bias of the column, whatever the row. -/
theorem bias_wide_apply (b : FVec Ideal S1x128 .f32) (p : Fin 8000) (n : Fin 128) :
    broadcastTo S8000x128 b broadcasts_S1x128_S8000x128 (ix2 p n) = b (ix2 0 n) :=
  broadcastTo_apply b broadcasts_S1x128_S8000x128 (ix2 p n) (ix2 0 n) (fun a => match a with
    | ⟨0, _⟩ => by show 0 = if (1 : Nat) = 1 then 0 else p.val; rw [if_pos rfl]
    | ⟨1, _⟩ => by show n.val = if (128 : Nat) = 1 then 0 else n.val; rw [if_neg (by decide)])

/-- The one-entry bias broadcast to 8000 rows reads that entry. -/
theorem bias_one_apply (b : FVec Ideal S1x1 .f32) (p : Fin 8000) (n : Fin 1) :
    broadcastTo S8000x1 b broadcasts_S1x1_S8000x1 (ix2 p n) = b (ix2 0 0) :=
  broadcastTo_apply b broadcasts_S1x1_S8000x1 (ix2 p n) (ix2 0 0) (fun a => match a with
    | ⟨0, _⟩ => by show 0 = if (1 : Nat) = 1 then 0 else p.val; rw [if_pos rfl]
    | ⟨1, _⟩ => by show 0 = if (1 : Nat) = 1 then 0 else n.val; rw [if_pos rfl])

/-! ## The pointwise operations at an index -/

theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

/-! ## A layer at an index: the affine map of the row -/

/-- The first layer before its `tanh`, at row `p` and feature `n`. -/
theorem layer_a_apply (a : FVec Ideal S8000x64 .bf16) (w : FVec Ideal S64x128 .bf16) (b : FVec Ideal S1x128 .f32) (p : Fin 8000) (n : Fin 128) :
    addf (matmul dot_S8000x64_S64x128_S8000x128_1_0_0_1_n_n none a (shapeCast S64x128 w shapeCasts_S64x128_S64x128) (constant S8000x128 .f32 0x00000000#32))
        (broadcastTo S8000x128 (shapeCast S1x128 b shapeCasts_S1x128_S1x128) broadcasts_S1x128_S8000x128) (ix2 p n)
      = EdgeMlp.affine (fun k => a (ix2 p k)) (fun k n => w (ix2 k n)) (fun n => b (ix2 0 n)) n := by
  rw [addf_apply, shapeCast_self, shapeCast_self, matmul_a_apply, bias_wide_apply]
  rfl

/-- A hidden layer before its `tanh`, at row `p` and feature `n`. -/
theorem layer_b_apply (a : FVec Ideal S8000x128 .bf16) (w : FVec Ideal S128x128 .bf16) (b : FVec Ideal S1x128 .f32) (p : Fin 8000) (n : Fin 128) :
    addf (matmul dot_S8000x128_S128x128_S8000x128_1_0_0_1_n_n none a (shapeCast S128x128 w shapeCasts_S128x128_S128x128) (constant S8000x128 .f32 0x00000000#32))
        (broadcastTo S8000x128 (shapeCast S1x128 b shapeCasts_S1x128_S1x128) broadcasts_S1x128_S8000x128) (ix2 p n)
      = EdgeMlp.affine (fun k => a (ix2 p k)) (fun k n => w (ix2 k n)) (fun n => b (ix2 0 n)) n := by
  rw [addf_apply, shapeCast_self, shapeCast_self, matmul_b_apply, bias_wide_apply]
  rfl

/-- The last layer before the logistic function, at row `p`. -/
theorem layer_c_apply (a : FVec Ideal S8000x128 .bf16) (w : FVec Ideal S128x1 .bf16) (b : FVec Ideal S1x1 .f32) (p : Fin 8000) (n : Fin 1) :
    addf (matmul dot_S8000x128_S128x1_S8000x1_1_0_0_1_n_n none a (shapeCast S128x1 w shapeCasts_S128x1_S128x1) (constant S8000x1 .f32 0x00000000#32))
        (broadcastTo S8000x1 (shapeCast S1x1 b shapeCasts_S1x1_S1x1) broadcasts_S1x1_S8000x1) (ix2 p n)
      = EdgeMlp.affine (fun k => a (ix2 p k)) (fun k n => w (ix2 k n)) (fun _ => b (ix2 0 0)) n := by
  rw [addf_apply, shapeCast_self, shapeCast_self, matmul_c_apply, bias_one_apply]
  rfl

/-! ## The body's result at a row -/

/-- Row `p` of what the body computes from its nine loaded blocks is the network on row `p` of the
    feature block, with the weights and biases as loaded. -/
theorem payload_row (x : Vec Ideal S8000x64 .f32) (w1 : Vec Ideal S64x128 .bf16) (b1 : Vec Ideal S1x128 .f32)
    (w2 : Vec Ideal S128x128 .bf16) (b2 : Vec Ideal S1x128 .f32) (w3 : Vec Ideal S128x128 .bf16) (b3 : Vec Ideal S1x128 .f32)
    (w4 : Vec Ideal S128x1 .bf16) (b4 : Vec Ideal S1x1 .f32) (p : Fin 8000) :
    k0_pay1 (F := Ideal) x w1 b1 w2 b2 w3 b3 w4 b4 (ix2 p 0)
      = EdgeMlp.net (fun l => x (ix2 p l)) (fun k n => w1 (ix2 k n)) (fun n => b1 (ix2 0 n))
          (fun k n => w2 (ix2 k n)) (fun n => b2 (ix2 0 n)) (fun k n => w3 (ix2 k n)) (fun n => b3 (ix2 0 n))
          (fun k n => w4 (ix2 k n)) (fun _ => b4 (ix2 0 0)) := by
  unfold k0_pay1 EdgeMlp.net
  simp only [logistic_apply, layer_c_apply, truncf_apply, tanh_apply, layer_b_apply, layer_a_apply]

end Cert.KernelIdeal.RowValue

end
-- ==== Proof.KernelValue.lean ====
/-
  The kernel's result, from its run.

  The call runs on a grid of 100 points. Point `t` stages rows `8000·t … 8000·t + 7999` of the edge
  features, and every point stages the whole of each weight matrix and bias, which the host prepared
  before the call: each weight matrix transposed (and cast, which changes nothing here), each bias
  reshaped to one row. Point `t` writes back 8000 entries of the output column, the network on each of
  its rows (`RowValue.payload_row`). The 100 blocks tile the column, so after the run entry `r` of the
  column is the network on edge `r`; the host then flattens the column to the result vector.
-/
import proofs.«109541_j996432412877_1_alg».proof.Proof.Gen.KernelIdeal.Frame
import proofs.«109541_j996432412877_1_alg».proof.Proof.KernelRow
import Idealize.ShloMosaic.Lib.Pipeline.Value
import Idealize.ShloMosaic.Lib.ValueIdx
import Idealize.ShloMosaic.Lib.StableHlo.Run

noncomputable section

open scoped BigOperators

namespace Cert.KernelIdeal.EdgeValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## What the call finds in its weight and bias operands

Each is one host operation (two for a weight: transpose, then a cast that is the identity) of an
argument array, read here at an index: a transposed weight at `(k, n)` is the stored weight at
`(n, k)`; a bias reshaped to one row at `(0, n)` is the bias at `n`. -/

theorem w1_found (c : Dev nD) : (V m c main_v1 : S64x128.Idx → EReal)
    = truncf (F := Ideal) .bf16 (transpose S64x128 [1, 0] (m ((c : Thread nD τ).loc main_arg3)) transposes_S128x64_S64x128_1_0) bitsLt_bf16_f32 := by
  show StableHlo.after hostOps0 (fun b => m (c, b)) (Proc.devRef .tc main_v1) = _
  after_results <;> rfl
theorem w1_at (c : Dev nD) (k : Fin 64) (n : Fin 128) :
    (V m c main_v1 : S64x128.Idx → EReal) (ix2 k n) = m ((c : Thread nD τ).loc main_arg3) (ix2 n k) := by
  rw [w1_found]
  exact transpose_apply [1, 0] _ transposes_S128x64_S64x128_1_0 (ix2 k n) (ix2 n k) (fun b => match b with
    | ⟨0, _⟩ => rfl
    | ⟨1, _⟩ => rfl)

theorem w2_found (c : Dev nD) : (V m c main_v3 : S128x128.Idx → EReal)
    = truncf (F := Ideal) .bf16 (transpose S128x128 [1, 0] (m ((c : Thread nD τ).loc main_arg5)) transposes_S128x128_S128x128_1_0) bitsLt_bf16_f32 := by
  show StableHlo.after hostOps0 (fun b => m (c, b)) (Proc.devRef .tc main_v3) = _
  after_results <;> rfl
theorem w2_at (c : Dev nD) (k : Fin 128) (n : Fin 128) :
    (V m c main_v3 : S128x128.Idx → EReal) (ix2 k n) = m ((c : Thread nD τ).loc main_arg5) (ix2 n k) := by
  rw [w2_found]
  exact transpose_apply [1, 0] _ transposes_S128x128_S128x128_1_0 (ix2 k n) (ix2 n k) (fun b => match b with
    | ⟨0, _⟩ => rfl
    | ⟨1, _⟩ => rfl)

theorem w3_found (c : Dev nD) : (V m c main_v5 : S128x128.Idx → EReal)
    = truncf (F := Ideal) .bf16 (transpose S128x128 [1, 0] (m ((c : Thread nD τ).loc main_arg7)) transposes_S128x128_S128x128_1_0) bitsLt_bf16_f32 := by
  show StableHlo.after hostOps0 (fun b => m (c, b)) (Proc.devRef .tc main_v5) = _
  after_results <;> rfl
theorem w3_at (c : Dev nD) (k : Fin 128) (n : Fin 128) :
    (V m c main_v5 : S128x128.Idx → EReal) (ix2 k n) = m ((c : Thread nD τ).loc main_arg7) (ix2 n k) := by
  rw [w3_found]
  exact transpose_apply [1, 0] _ transposes_S128x128_S128x128_1_0 (ix2 k n) (ix2 n k) (fun b => match b with
    | ⟨0, _⟩ => rfl
    | ⟨1, _⟩ => rfl)

theorem w4_found (c : Dev nD) : (V m c main_v7 : S128x1.Idx → EReal)
    = truncf (F := Ideal) .bf16 (transpose S128x1 [1, 0] (m ((c : Thread nD τ).loc main_arg9)) transposes_S1x128_S128x1_1_0) bitsLt_bf16_f32 := by
  show StableHlo.after hostOps0 (fun b => m (c, b)) (Proc.devRef .tc main_v7) = _
  after_results <;> rfl
theorem w4_at (c : Dev nD) (k : Fin 128) (n : Fin 1) :
    (V m c main_v7 : S128x1.Idx → EReal) (ix2 k n) = m ((c : Thread nD τ).loc main_arg9) (ix2 n k) := by
  rw [w4_found]
  exact transpose_apply [1, 0] _ transposes_S1x128_S128x1_1_0 (ix2 k n) (ix2 n k) (fun b => match b with
    | ⟨0, _⟩ => rfl
    | ⟨1, _⟩ => rfl)

theorem b1_found (c : Dev nD) : (V m c main_v8 : S1x128.Idx → EReal)
    = shapeCast S1x128 (m ((c : Thread nD τ).loc main_arg4)) shapeCasts_S128_S1x128 := by
  show StableHlo.after hostOps0 (fun b => m (c, b)) (Proc.devRef .tc main_v8) = _
  after_results <;> rfl
theorem b1_at (c : Dev nD) (n : Fin 128) :
    (V m c main_v8 : S1x128.Idx → EReal) (ix2 0 n) = m ((c : Thread nD τ).loc main_arg4) (ix1 n) := by
  rw [b1_found]
  exact shapeCast_apply _ shapeCasts_S128_S1x128 (ix2 0 n) (ix1 n)
    (by rewrite [Shape.rowMajor_val_one, Shape.rowMajor_val_two]; show n.val = 0 * 128 + n.val; omega)

theorem b2_found (c : Dev nD) : (V m c main_v9 : S1x128.Idx → EReal)
    = shapeCast S1x128 (m ((c : Thread nD τ).loc main_arg6)) shapeCasts_S128_S1x128 := by
  show StableHlo.after hostOps0 (fun b => m (c, b)) (Proc.devRef .tc main_v9) = _
  after_results <;> rfl
theorem b2_at (c : Dev nD) (n : Fin 128) :
    (V m c main_v9 : S1x128.Idx → EReal) (ix2 0 n) = m ((c : Thread nD τ).loc main_arg6) (ix1 n) := by
  rw [b2_found]
  exact shapeCast_apply _ shapeCasts_S128_S1x128 (ix2 0 n) (ix1 n)
    (by rewrite [Shape.rowMajor_val_one, Shape.rowMajor_val_two]; show n.val = 0 * 128 + n.val; omega)

theorem b3_found (c : Dev nD) : (V m c main_v10 : S1x128.Idx → EReal)
    = shapeCast S1x128 (m ((c : Thread nD τ).loc main_arg8)) shapeCasts_S128_S1x128 := by
  show StableHlo.after hostOps0 (fun b => m (c, b)) (Proc.devRef .tc main_v10) = _
  after_results <;> rfl
theorem b3_at (c : Dev nD) (n : Fin 128) :
    (V m c main_v10 : S1x128.Idx → EReal) (ix2 0 n) = m ((c : Thread nD τ).loc main_arg8) (ix1 n) := by
  rw [b3_found]
  exact shapeCast_apply _ shapeCasts_S128_S1x128 (ix2 0 n) (ix1 n)
    (by rewrite [Shape.rowMajor_val_one, Shape.rowMajor_val_two]; show n.val = 0 * 128 + n.val; omega)

theorem b4_found (c : Dev nD) : (V m c main_v11 : S1x1.Idx → EReal)
    = shapeCast S1x1 (m ((c : Thread nD τ).loc main_arg10)) shapeCasts_S1_S1x1 := by
  show StableHlo.after hostOps0 (fun b => m (c, b)) (Proc.devRef .tc main_v11) = _
  after_results <;> rfl
theorem b4_at (c : Dev nD) :
    (V m c main_v11 : S1x1.Idx → EReal) (ix2 0 0) = m ((c : Thread nD τ).loc main_arg10) (ix1 0) := by
  rw [b4_found]
  exact shapeCast_apply _ shapeCasts_S1_S1x1 (ix2 0 0) (ix1 0)
    (by rewrite [Shape.rowMajor_val_one, Shape.rowMajor_val_two]; show (0 : Nat) = 0 * 1 + 0; omega)

/-! ## Where each window's block sits

Decided over the 100 points: the feature window and the output window move together down the
rows, one block of 8000 per point; every other window stays at block `(0, 0)`, the whole array. -/

theorem hz : (![0, 0] : Fin 2 → Nat) = fun _ => 0 := funext fun a => by fin_cases a <;> rfl

theorem idx_out : ∀ t : Fin cfg0.N, win0_9.index t (1 : Fin 2) = 0 ∧ win0_9.index t (0 : Fin 2) ≤ 99 :=
  (by decide +kernel : ∀ t : Fin grid0.N, _)
theorem idx_x : ∀ t : Fin cfg0.N, win0_0.index t (0 : Fin 2) = win0_9.index t (0 : Fin 2) ∧ win0_0.index t (1 : Fin 2) = 0 :=
  (by decide +kernel : ∀ t : Fin grid0.N, _)
theorem idx_w : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)
/-- Every block of rows is some point's. -/
theorem idx_onto : ∀ q : Fin 100, ∃ t : Fin cfg0.N, win0_9.index t = ![q.val, 0] :=
  (by decide +kernel : ∀ q : Fin 100, ∃ t : Fin grid0.N, win0_9.index t = ![q.val, 0])

/-- The edge that row `p` of point `t`'s block is. -/
def edge (t : Fin cfg0.N) (p : Fin 8000) : Fin 800000 :=
  ⟨win0_9.index t (0 : Fin 2) * 8000 + p.val, by have h := (idx_out t).2; have := p.isLt; omega⟩

/-! ## Each staged block, read at an index -/

/-- Row `p` of the feature block at point `t` is the feature row of edge `edge t p`. -/
theorem x_read (c : Dev nD) (t : Fin cfg0.N) (p : Fin 8000) (l : Fin 64) :
    iblk m c 0 t (ix2 p l) = m ((c : Thread nD τ).loc main_arg2) (ix2 (edge t p) l) := by
  obtain ⟨e0, e1⟩ := idx_x t
  show V m c main_arg2 (((cfg0.win 0).blk t).view.emb (ix2 p l)) = _
  rw [V_main_arg2]
  refine congrArg _ (funext fun a => Fin.ext ?_)
  match a with
  | ⟨0, _⟩ => show win0_0.index t (0 : Fin 2) * 8000 + 1 * p.val = win0_9.index t (0 : Fin 2) * 8000 + p.val; omega
  | ⟨1, _⟩ => show win0_0.index t (1 : Fin 2) * 64 + 1 * l.val = l.val; omega

theorem w1_read (c : Dev nD) (t : Fin cfg0.N) (k : Fin 64) (n : Fin 128) :
    iblk m c 1 t (ix2 k n) = m ((c : Thread nD τ).loc main_arg3) (ix2 n k) := by
  obtain ⟨⟨e0, e1⟩, -⟩ := idx_w t
  show V m c main_v1 (((cfg0.win 1).blk t).view.emb (ix2 k n)) = _
  refine (congrArg (V m c main_v1) (funext fun a => Fin.ext ?_)).trans (w1_at m c k n)
  match a with
  | ⟨0, _⟩ => show win0_1.index t (0 : Fin 2) * 64 + 1 * k.val = k.val; omega
  | ⟨1, _⟩ => show win0_1.index t (1 : Fin 2) * 128 + 1 * n.val = n.val; omega

theorem b1_read (c : Dev nD) (t : Fin cfg0.N) (n : Fin 128) :
    iblk m c 2 t (ix2 0 n) = m ((c : Thread nD τ).loc main_arg4) (ix1 n) := by
  obtain ⟨-, ⟨e0, e1⟩, -⟩ := idx_w t
  show V m c main_v8 (((cfg0.win 2).blk t).view.emb (ix2 0 n)) = _
  refine (congrArg (V m c main_v8) (funext fun a => Fin.ext ?_)).trans (b1_at m c n)
  match a with
  | ⟨0, _⟩ => show win0_2.index t (0 : Fin 2) * 1 + 1 * 0 = 0; omega
  | ⟨1, _⟩ => show win0_2.index t (1 : Fin 2) * 128 + 1 * n.val = n.val; omega

theorem w2_read (c : Dev nD) (t : Fin cfg0.N) (k : Fin 128) (n : Fin 128) :
    iblk m c 3 t (ix2 k n) = m ((c : Thread nD τ).loc main_arg5) (ix2 n k) := by
  obtain ⟨-, -, ⟨e0, e1⟩, -⟩ := idx_w t
  show V m c main_v3 (((cfg0.win 3).blk t).view.emb (ix2 k n)) = _
  refine (congrArg (V m c main_v3) (funext fun a => Fin.ext ?_)).trans (w2_at m c k n)
  match a with
  | ⟨0, _⟩ => show win0_3.index t (0 : Fin 2) * 128 + 1 * k.val = k.val; omega
  | ⟨1, _⟩ => show win0_3.index t (1 : Fin 2) * 128 + 1 * n.val = n.val; omega

theorem b2_read (c : Dev nD) (t : Fin cfg0.N) (n : Fin 128) :
    iblk m c 4 t (ix2 0 n) = m ((c : Thread nD τ).loc main_arg6) (ix1 n) := by
  obtain ⟨-, -, -, ⟨e0, e1⟩, -⟩ := idx_w t
  show V m c main_v9 (((cfg0.win 4).blk t).view.emb (ix2 0 n)) = _
  refine (congrArg (V m c main_v9) (funext fun a => Fin.ext ?_)).trans (b2_at m c n)
  match a with
  | ⟨0, _⟩ => show win0_4.index t (0 : Fin 2) * 1 + 1 * 0 = 0; omega
  | ⟨1, _⟩ => show win0_4.index t (1 : Fin 2) * 128 + 1 * n.val = n.val; omega

theorem w3_read (c : Dev nD) (t : Fin cfg0.N) (k : Fin 128) (n : Fin 128) :
    iblk m c 5 t (ix2 k n) = m ((c : Thread nD τ).loc main_arg7) (ix2 n k) := by
  obtain ⟨-, -, -, -, ⟨e0, e1⟩, -⟩ := idx_w t
  show V m c main_v5 (((cfg0.win 5).blk t).view.emb (ix2 k n)) = _
  refine (congrArg (V m c main_v5) (funext fun a => Fin.ext ?_)).trans (w3_at m c k n)
  match a with
  | ⟨0, _⟩ => show win0_5.index t (0 : Fin 2) * 128 + 1 * k.val = k.val; omega
  | ⟨1, _⟩ => show win0_5.index t (1 : Fin 2) * 128 + 1 * n.val = n.val; omega

theorem b3_read (c : Dev nD) (t : Fin cfg0.N) (n : Fin 128) :
    iblk m c 6 t (ix2 0 n) = m ((c : Thread nD τ).loc main_arg8) (ix1 n) := by
  obtain ⟨-, -, -, -, -, ⟨e0, e1⟩, -⟩ := idx_w t
  show V m c main_v10 (((cfg0.win 6).blk t).view.emb (ix2 0 n)) = _
  refine (congrArg (V m c main_v10) (funext fun a => Fin.ext ?_)).trans (b3_at m c n)
  match a with
  | ⟨0, _⟩ => show win0_6.index t (0 : Fin 2) * 1 + 1 * 0 = 0; omega
  | ⟨1, _⟩ => show win0_6.index t (1 : Fin 2) * 128 + 1 * n.val = n.val; omega

theorem w4_read (c : Dev nD) (t : Fin cfg0.N) (k : Fin 128) (n : Fin 1) :
    iblk m c 7 t (ix2 k n) = m ((c : Thread nD τ).loc main_arg9) (ix2 n k) := by
  obtain ⟨-, -, -, -, -, -, ⟨e0, e1⟩, -⟩ := idx_w t
  show V m c main_v7 (((cfg0.win 7).blk t).view.emb (ix2 k n)) = _
  refine (congrArg (V m c main_v7) (funext fun a => Fin.ext ?_)).trans (w4_at m c k n)
  match a with
  | ⟨0, _⟩ => show win0_7.index t (0 : Fin 2) * 128 + 1 * k.val = k.val; omega
  | ⟨1, _⟩ => show win0_7.index t (1 : Fin 2) * 1 + 1 * n.val = n.val; omega

theorem b4_read (c : Dev nD) (t : Fin cfg0.N) :
    iblk m c 8 t (ix2 0 0) = m ((c : Thread nD τ).loc main_arg10) (ix1 0) := by
  obtain ⟨-, -, -, -, -, -, -, e0, e1⟩ := idx_w t
  show V m c main_v11 (((cfg0.win 8).blk t).view.emb (ix2 0 0)) = _
  refine (congrArg (V m c main_v11) (funext fun a => Fin.ext ?_)).trans (b4_at m c)
  match a with
  | ⟨0, _⟩ => show win0_8.index t (0 : Fin 2) * 1 + 1 * 0 = 0; omega
  | ⟨1, _⟩ => show win0_8.index t (1 : Fin 2) * 1 + 1 * 0 = 0; omega

/-! ## The output column -/

/-- The output column as one function of the argument arrays: entry `(r, 0)` is the network on edge `r`. -/
def column (c : Dev nD) : S800000x1.Idx → EReal := fun i =>
  EdgeMlp.out (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)

/-- What point `t` writes back is block `t` of the column. -/
theorem flushed_eq (c : Dev nD) (t : Fin cfg0.N) :
    (dats m 0 c).flushed 9 t = ((cfg0.win 9).blk t).view.read (Elt Ideal) (column m c) := by
  show (cfg0.win 9).cut (grid0.coords t) ((dats m 0 c).after 9 t) = _
  rw [after0_9]
  unfold out0_9
  rw [View.canon_unit_zero hz]
  simp only [View.ld_unit_zero (S := S8000x64) hz, View.ld_unit_zero (S := S64x128) hz, View.ld_unit_zero (S := S1x128) hz,
    View.ld_unit_zero (S := S128x128) hz, View.ld_unit_zero (S := S128x1) hz, View.ld_unit_zero (S := S1x1) hz]
  funext j
  obtain ⟨p, q, rfl⟩ : ∃ (p : Fin 8000) (q : Fin 1), j = ix2 p q := ⟨j 0, j 1, eq_ix2 j⟩
  obtain rfl : q = 0 := Subsingleton.elim q 0
  refine (RowValue.payload_row (iblk m c 0 t) (iblk m c 1 t) (iblk m c 2 t) (iblk m c 3 t) (iblk m c 4 t) (iblk m c 5 t)
    (iblk m c 6 t) (iblk m c 7 t) (iblk m c 8 t) p).trans ?_
  refine (EdgeMlp.net_congr (fun l => x_read m c t p l) (fun k n => w1_read m c t k n) (fun n => b1_read m c t n)
    (fun k n => w2_read m c t k n) (fun n => b2_read m c t n) (fun k n => w3_read m c t k n) (fun n => b3_read m c t n)
    (fun k n => w4_read m c t k n) (fun _ => b4_read m c t)).trans ?_
  have hrow : (((cfg0.win 9).blk t).view.emb (ix2 p (0 : Fin 1))) 0 = edge t p :=
    Fin.ext (by show win0_9.index t (0 : Fin 2) * 8000 + 1 * p.val = win0_9.index t (0 : Fin 2) * 8000 + p.val; omega)
  show EdgeMlp.out _ _ _ _ _ _ _ _ _ (edge t p) = EdgeMlp.out _ _ _ _ _ _ _ _ _ ((((cfg0.win 9).blk t).view.emb (ix2 p (0 : Fin 1))) 0)
  rw [hrow]

/-- An entry of the column is in point `t`'s block iff its row is among the block's 8000. -/
theorem mem_blk (t : Fin cfg0.N) (i : S800000x1.Idx) :
    i ∈ ((cfg0.win 9).blk t).view.set ↔ ∀ a : Fin 2, win0_9.index t a * S8000x1.size a ≤ (i a).val ∧ (i a).val < win0_9.index t a * S8000x1.size a + S8000x1.size a := by
  show i ∈ ((View.whole main_v12).slice (win0_9.rect t)).set ↔ _
  rw [View.set_slice_whole, Rect.mem_set_unit]
  exact Iff.rfl

/-- Every entry of the column is written by the point whose block holds its row: row `r` by point `r / 8000`. -/
theorem covered (i : S800000x1.Idx) :
    ∃ t : Fin cfg0.N, (cfg0.win 9).flush t = true ∧ i ∈ ((cfg0.win 9).blk t).view.set := by
  have hi0 : (i 0).val < 800000 := (i 0).isLt
  have hi1 : (i 1).val < 1 := (i 1).isLt
  obtain ⟨t, ht⟩ := idx_onto ⟨(i 0).val / 8000, by omega⟩
  have q0 : win0_9.index t (0 : Fin 2) = (i 0).val / 8000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 1 ≤ (i 1).val ∧ (i 1).val < win0_9.index t (1 : Fin 2) * 1 + 1; omega

/-- The output column after the run. -/
theorem column_final (c : Dev nD) : (dats m 0 c).arrAt 9 cfg0.N = column m c :=
  (dats m 0 c).arrAt_eq_of_cover 9 (column m c) (fun t _ => flushed_eq m c t) covered

/-! ## The result vector -/

/-- The result as one function of the argument arrays: entry `r` is the network on edge `r`. -/
def result (c : Dev nD) : S800000.Idx → EReal := fun i =>
  EdgeMlp.out (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)

/-- The host's flattening of the final column: entry `r` of the vector is entry `(r, 0)` of the column. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have harr : Pipeline.withArrays (cfgs 0).spec c (V0 m c) (fun w => (dats m 0 c).arrAt w (cfgs 0).N) (Proc.devRef .tc main_v12) = column m c :=
    (Pipeline.withArrays_arr spec0 launch0.win.arr_inj c _ _ 9).trans (column_final m c)
  rw [harr]
  funext i
  obtain ⟨r, rfl⟩ : ∃ r : Fin 800000, i = ix1 r := ⟨i 0, eq_ix1 i⟩
  exact shapeCast_apply (column m c) shapeCasts_S800000x1_S800000 (ix1 r) (ix2 r 0)
    (by rewrite [Shape.rowMajor_val_two, Shape.rowMajor_val_one]; show r.val * 1 + 0 = r.val; omega)

/-! ## The run -/

/-- Every weakly fair execution of the idealized kernel program terminates with the result vector at
    `result` and every argument array as it was. -/
theorem run : θ_run defs (onTc (τ := τ) (main (F := Ideal))) ⟨m, fun _ => 0, ρ⟩ (fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨
      ((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.EdgeValue

end
-- ==== Proof.RefValue.lean ====
/-
  The reference, read edge by edge.

  The reference runs the same four layers over all 800000 edges at once, each as a host product of
  the whole feature array with the transposed weight matrix, a bias broadcast over the edges, and
  `tanh`; the last layer ends in the logistic function written out as `1 / (1 + e^(-z))`, and the
  single column is then flattened to a vector. Read at edge `r`, each host product is the sum over
  the contracted feature, the transposed weight at `(k, n)` is the stored one at `(n, k)`, and the
  broadcast bias is the bias of its feature; the written-out logistic is the logistic function. So
  entry `r` of the result is `EdgeMlp.out` at `r`.
-/
import proofs.«109541_j996432412877_1_alg».proof.Proof.Gen.ReferenceIdeal.Read
import proofs.«109541_j996432412877_1_alg».proof.Proof.Spec

noncomputable section

open scoped BigOperators

namespace Cert.ReferenceIdeal.EdgeValue

open Cert.ReferenceIdeal Cert.ReferenceIdeal.Read Idealize.ShloMosaic Idealize.ShloMosaic.ValueIdx

/-! ## Where each layer's operands are read -/

theorem lidx1 (r : Fin 800000) (n : Fin 128) (k : Fin 64) : lidx_main_v1 (ix2 r n) k = ix2 r k :=
  funext fun a => Fin.ext (by match a with | ⟨0, _⟩ => rfl | ⟨1, _⟩ => rfl)
theorem ridx1 (r : Fin 800000) (n : Fin 128) (k : Fin 64) : idx_main_v0 (ridx_main_v1 (ix2 r n) k) = ix2 n k :=
  funext fun a => Fin.ext (by match a with | ⟨0, _⟩ => rfl | ⟨1, _⟩ => rfl)
theorem bidx1 (r : Fin 800000) (n : Fin 128) : idx_main_v2 (idx_main_v3 (ix2 r n)) = ix1 n :=
  funext fun a => Fin.ext (by match a with | ⟨0, _⟩ => rfl)

theorem lidx2 (r : Fin 800000) (n : Fin 128) (k : Fin 128) : lidx_main_v7 (ix2 r n) k = ix2 r k :=
  funext fun a => Fin.ext (by match a with | ⟨0, _⟩ => rfl | ⟨1, _⟩ => rfl)
theorem ridx2 (r : Fin 800000) (n : Fin 128) (k : Fin 128) : idx_main_v6 (ridx_main_v7 (ix2 r n) k) = ix2 n k :=
  funext fun a => Fin.ext (by match a with | ⟨0, _⟩ => rfl | ⟨1, _⟩ => rfl)
theorem bidx2 (r : Fin 800000) (n : Fin 128) : idx_main_v8 (idx_main_v9 (ix2 r n)) = ix1 n :=
  funext fun a => Fin.ext (by match a with | ⟨0, _⟩ => rfl)

theorem lidx3 (r : Fin 800000) (n : Fin 128) (k : Fin 128) : lidx_main_v13 (ix2 r n) k = ix2 r k :=
  funext fun a => Fin.ext (by match a with | ⟨0, _⟩ => rfl | ⟨1, _⟩ => rfl)
theorem ridx3 (r : Fin 800000) (n : Fin 128) (k : Fin 128) : idx_main_v12 (ridx_main_v13 (ix2 r n) k) = ix2 n k :=
  funext fun a => Fin.ext (by match a with | ⟨0, _⟩ => rfl | ⟨1, _⟩ => rfl)
theorem bidx3 (r : Fin 800000) (n : Fin 128) : idx_main_v14 (idx_main_v15 (ix2 r n)) = ix1 n :=
  funext fun a => Fin.ext (by match a with | ⟨0, _⟩ => rfl)

theorem lidx4 (r : Fin 800000) (n : Fin 1) (k : Fin 128) : lidx_main_v19 (ix2 r n) k = ix2 r k :=
  funext fun a => Fin.ext (by match a with | ⟨0, _⟩ => rfl | ⟨1, _⟩ => rfl)
theorem ridx4 (r : Fin 800000) (n : Fin 1) (k : Fin 128) : idx_main_v18 (ridx_main_v19 (ix2 r n) k) = ix2 n k :=
  funext fun a => Fin.ext (by match a with | ⟨0, _⟩ => rfl | ⟨1, _⟩ => rfl)
theorem bidx4 (r : Fin 800000) (n : Fin 1) : idx_main_v20 (idx_main_v21 (ix2 r n)) = ix1 0 :=
  funext fun a => Fin.ext (by match a with | ⟨0, _⟩ => rfl)

/-- The flattened result at edge `i` is the column at `(i, 0)`. -/
theorem flat_idx (r : Fin 800000) : idx_main_v29 (ix1 r) = ix2 r 0 :=
  funext fun a => Fin.ext (by match a with | ⟨0, _⟩ => exact Nat.div_one _ | ⟨1, _⟩ => rfl)

section
variable (x2 : (⟨S800000x64, .f32⟩ : BufTy).Contents (Elt Ideal)) (x3 : (⟨S128x64, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S1x128, .f32⟩ : BufTy).Contents (Elt Ideal))
  (x10 : (⟨S1, .f32⟩ : BufTy).Contents (Elt Ideal))

/-! ## The layers at an edge -/

/-- The first hidden layer at edge `r`, feature `n`. -/
theorem hidden1 (r : Fin 800000) (n : Fin 128) :
    val_main_v5 (F := Ideal) x2 x3 x4 (ix2 r n)
      = Ideal.tanh (EdgeMlp.affine (fun l => x2 (ix2 r l)) (fun k n => x3 (ix2 n k)) (fun n => x4 (ix1 n)) n) := by
  rw [val_main_v5_apply, val_main_v4_apply, val_main_v1_apply, val_main_v3_apply, val_main_v2_apply]
  simp only [val_main_v0_apply, lidx1, ridx1, bidx1]
  rfl

/-- The second hidden layer at edge `r`, feature `n`, over the first. -/
theorem hidden2 (r : Fin 800000) (n : Fin 128) :
    val_main_v11 (F := Ideal) x2 x3 x4 x5 x6 (ix2 r n)
      = Ideal.tanh (EdgeMlp.affine (fun k => val_main_v5 (F := Ideal) x2 x3 x4 (ix2 r k)) (fun k n => x5 (ix2 n k)) (fun n => x6 (ix1 n)) n) := by
  rw [val_main_v11_apply, val_main_v10_apply, val_main_v7_apply, val_main_v9_apply, val_main_v8_apply]
  simp only [val_main_v6_apply, lidx2, ridx2, bidx2]
  rfl

/-- The third hidden layer at edge `r`, feature `n`, over the second. -/
theorem hidden3 (r : Fin 800000) (n : Fin 128) :
    val_main_v17 (F := Ideal) x2 x3 x4 x5 x6 x7 x8 (ix2 r n)
      = Ideal.tanh (EdgeMlp.affine (fun k => val_main_v11 (F := Ideal) x2 x3 x4 x5 x6 (ix2 r k)) (fun k n => x7 (ix2 n k)) (fun n => x8 (ix1 n)) n) := by
  rw [val_main_v17_apply, val_main_v16_apply, val_main_v13_apply, val_main_v15_apply, val_main_v14_apply]
  simp only [val_main_v12_apply, lidx3, ridx3, bidx3]
  rfl

/-- The last layer before the logistic function, at edge `r`, over the third. -/
theorem last (r : Fin 800000) (n : Fin 1) :
    val_main_v22 (F := Ideal) x2 x3 x4 x5 x6 x7 x8 x9 x10 (ix2 r n)
      = EdgeMlp.affine (fun k => val_main_v17 (F := Ideal) x2 x3 x4 x5 x6 x7 x8 (ix2 r k)) (fun k n => x9 (ix2 n k)) (fun _ => x10 (ix1 0)) n := by
  rw [val_main_v22_apply, val_main_v19_apply, val_main_v21_apply, val_main_v20_apply]
  simp only [val_main_v18_apply, lidx4, ridx4, bidx4]
  rfl

/-! ## The result -/

/-- Entry `r` of the reference's result is the network on edge `r`'s row of features. -/
theorem result_at (r : Fin 800000) :
    val_main_v29 (F := Ideal) x2 x3 x4 x5 x6 x7 x8 x9 x10 (ix1 r) = EdgeMlp.out x2 x3 x4 x5 x6 x7 x8 x9 x10 r := by
  rw [val_main_v29_apply, flat_idx, val_main_v28_apply, val_main_v27_apply, val_main_cst_0_apply, val_main_v26_apply,
    val_main_v25_apply, val_main_cst_apply, val_main_v24_apply, val_main_v23_apply, last]
  simp only [hidden3, hidden2, hidden1]
  exact EdgeMlp.logistic_expanded _

/-- The reference's whole result: entry `i` is the network on edge `i`. -/
theorem result_eq :
    val_main_v29 (F := Ideal) x2 x3 x4 x5 x6 x7 x8 x9 x10 = fun i => EdgeMlp.out x2 x3 x4 x5 x6 x7 x8 x9 x10 (i 0) := by
  funext i
  obtain ⟨r, rfl⟩ : ∃ r : Fin 800000, i = ix1 r := ⟨i 0, eq_ix1 i⟩
  exact result_at x2 x3 x4 x5 x6 x7 x8 x9 x10 r

end

end Cert.ReferenceIdeal.EdgeValue

end
-- ==== Proof.lean ====
/-
  A four-layer network over the edges of a graph: the kernel against the reference.

  Both programs take the edge features `[800000, 64]` and four layers' weights and biases and return,
  per edge, the logistic function of the last layer's one output; the node features and the edge
  index are arguments that neither program reads. The kernel streams the edges through the layers in
  100 blocks of 8000 rows with the weights resident, casting to a narrower float format between the
  layers; the reference applies each layer to all edges at once. Over the extended reals a change of
  float format is the identity and a product into a zero accumulator is the plain sum, so both are,
  edge by edge, the one function `EdgeMlp.out`:

    logistic (Σ_k tanh (Σ_j tanh (Σ_i tanh (Σ_l x_l · W1_{i,l} + b1_i) · W2_{j,i} + b2_j) · W3_{k,j} + b3_k) · W4_{0,k} + b4_0).

  The two sides write the same sums in the same order, so no law of arithmetic is used beyond reading
  each operation at an index, and the precondition (finite inputs) is not needed for the equality.
  The reference spells the logistic function as `1 / (1 + e^(-z))`; that is its definition.
  `Spec` states the function, `KernelRow` reads one block of the kernel row by row, `KernelValue`
  assembles the blocks into the result and states the kernel's run, `RefValue` reads the reference.
-/
import proofs.«109541_j996432412877_1_alg».proof.Defs
import proofs.«109541_j996432412877_1_alg».proof.Proof.Gen.Kernel
import proofs.«109541_j996432412877_1_alg».proof.Proof.Gen.Kernel.Skeleton
import proofs.«109541_j996432412877_1_alg».proof.Proof.Gen.Kernel.Launch
import proofs.«109541_j996432412877_1_alg».proof.Proof.Gen.Kernel.Points
import proofs.«109541_j996432412877_1_alg».proof.Proof.Gen.Kernel.Frame
import proofs.«109541_j996432412877_1_alg».proof.Proof.Gen.KernelIdeal
import proofs.«109541_j996432412877_1_alg».proof.Proof.Gen.KernelIdeal.Skeleton
import proofs.«109541_j996432412877_1_alg».proof.Proof.Gen.KernelIdeal.Launch
import proofs.«109541_j996432412877_1_alg».proof.Proof.Gen.KernelIdeal.Points
import proofs.«109541_j996432412877_1_alg».proof.Proof.Gen.KernelIdeal.Frame
import proofs.«109541_j996432412877_1_alg».proof.Proof.Gen.ReferenceIdeal
import proofs.«109541_j996432412877_1_alg».proof.Proof.Gen.Pre_finite_inputs
import proofs.«109541_j996432412877_1_alg».proof.Proof.Gen.ReferenceIdeal.Run
import proofs.«109541_j996432412877_1_alg».proof.Proof.Gen.ReferenceIdeal.Read
import proofs.«109541_j996432412877_1_alg».proof.Proof.KernelValue
import proofs.«109541_j996432412877_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result's conjunct dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- From memories that agree on the arguments both programs end with the same vector: entry `r` is
    the network on edge `r`'s features (`EdgeMlp.out`), by `EdgeValue.run` for the kernel and by the
    reference's run read through `EdgeValue.result_eq`. -/
theorem algebraic : Cert.algebraic_KernelIdeal_ReferenceIdeal := by
  intro m ρ m' ρ' _ hagree
  refine ⟨fun c => Cert.KernelIdeal.EdgeValue.result m c, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq _ _ _ _ _ _ _ _ _).trans
    ((Cert.ReferenceIdeal.EdgeValue.result_eq _ _ _ _ _ _ _ _ _).trans ?_)
  obtain ⟨-, -, h2, h3, h4, h5, h6, h7, h8, h9, h10⟩ := hagree c
  rw [h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
